-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1600000x2 : Shape := ⟨2, ![1600000, 2]⟩
abbrev S1600000 : Shape := ⟨1, ![1600000]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S8192x4096 .f32) (main_arg1 : IVec S1600000x2 32) (main_arg2 : FVec F S1600000 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  main_v8
-- ==== Kernel.lean ====
abbrev S8192x4096 : Shape := ⟨2, ![8192, 4096]⟩
abbrev S1600000x2 : Shape := ⟨2, ![1600000, 2]⟩
abbrev S1600000 : Shape := ⟨1, ![1600000]⟩
abbrev S1600000x1 : Shape := ⟨2, ![1600000, 1]⟩
abbrev S_ : Shape := ⟨0, ![]⟩
abbrev S4096x4096 : Shape := ⟨2, ![4096, 4096]⟩
abbrev S1024x1024 : Shape := ⟨2, ![1024, 1024]⟩

abbrev nBuf : Space → Nat
  | .hbm => 30
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1600000x2, .i32⟩
  | .hbm, ⟨2, _⟩ => ⟨S1600000, .f32⟩
  | .hbm, ⟨3, _⟩ => ⟨S1600000x1, .i32⟩
  | .hbm, ⟨4, _⟩ => ⟨S1600000, .i32⟩
  | .hbm, ⟨5, _⟩ => ⟨S1600000x1, .i32⟩
  | .hbm, ⟨6, _⟩ => ⟨S1600000, .i32⟩
  | .hbm, ⟨7, _⟩ => ⟨S_, .f32⟩
  | .hbm, ⟨8, _⟩ => ⟨S4096x4096, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x1, .i32⟩
  | .hbm, ⟨25, _⟩ => ⟨S1600000x2, .i32⟩
  | .hbm, ⟨26, _⟩ => ⟨S4096x4096, .f32⟩
  | .hbm, ⟨27, _⟩ => ⟨S8192x4096, .bf16⟩
  | .hbm, ⟨28, _⟩ => ⟨S4096x4096, .bf16⟩
  | .hbm, ⟨29, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  scatter_S4096x4096_S1600000x2_S1600000_n_01_01_1_wf : ScatterDims.WF S4096x4096 S1600000x2 S1600000 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S1600000x2 : Shape := ⟨2, ![1600000, 2]⟩
abbrev S1600000 : Shape := ⟨1, ![1600000]⟩
abbrev S1600000x1 : Shape := ⟨2, ![1600000, 1]⟩
abbrev S_ : Shape := ⟨0, ![]⟩
abbrev S4096x4096 : Shape := ⟨2, ![4096, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1600000x2, .i32⟩
  | .hbm, ⟨2, _⟩ => ⟨S1600000, .f32⟩
  | .hbm, ⟨3, _⟩ => ⟨S1600000x1, .i32⟩
  | .hbm, ⟨4, _⟩ => ⟨S1600000, .i32⟩
  | .hbm, ⟨5, _⟩ => ⟨S1600000x1, .i32⟩
  | .hbm, ⟨6, _⟩ => ⟨S1600000, .i32⟩
  | .hbm, ⟨7, _⟩ => ⟨S_, .f32⟩
  | .hbm, ⟨8, _⟩ => ⟨S4096x4096, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x1, .i32⟩
  | .hbm, ⟨25, _⟩ => ⟨S1600000x2, .i32⟩
  | .hbm, ⟨26, _⟩ => ⟨S4096x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S_S8192x4096 : S_.BroadcastsInDim S8192x4096 (![] : Fin 0 → Fin S8192x4096.rank)
  scatter_S4096x4096_S1600000x2_S1600000_n_01_01_1_wf : ScatterDims.WF S4096x4096 S1600000x2 S1600000 [] [0, 1] [0, 1] 1
  dot_S8192x4096_S4096x4096_S8192x4096_1_1_0_0_n_n_wf : DotDims.WF S8192x4096 S4096x4096 S8192x4096 [1] [1] [0] [0] [] []

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KernelPieces.lean ====
import proofs.«161103_j13795434954806_1_alg».proof.Proof.Gen.KernelIdeal.Frame
import Idealize.ShloMosaic.Lib.Pipeline.Value
import Idealize.ShloMosaic.Lib.Tactic

/-!
  What one grid point leaves behind, as a term of the loaded blocks.

  The body keeps a 1024 × 1024 accumulator.  At the first point of a run of four it overwrites the
  accumulator with zeros and then adds the product of the two input blocks; at the other points it adds
  the product to what the previous point left; at the last point of the run it also stores the
  accumulator, clipped below at zero, into the output block.  Each of these is one whole-block store, so
  reading the stores back gives the stored value itself.
-/

noncomputable section

namespace Cert.KernelIdeal.KValue

open Cert.KernelIdeal Cert.KernelIdeal.Gen Idealize.ShloMosaic Idealize.ShloMosaic.TcCoe Idealize.SL.Sem
open Idealize.ShloMosaic.Tactic

variable {F : FTy → Type} [FloatOps F]

/-- The zero offsets of a whole-block access. -/
theorem hz : (![0, 0] : Fin 2 → Nat) = fun _ => 0 := funext fun a => by fin_cases a <;> rfl

/-- A point in the middle of a run: the accumulator becomes the old accumulator plus the product of the
    two blocks. -/
theorem sout_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz]

/-- The last point of a run updates the accumulator in the same way … -/
theorem sout_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- … and stores the updated accumulator, clipped below at zero, into the output block. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = k0_pay3 (k0_pay2 xs0 x0 x1) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz,
    View.readCov_unit_zero (S := S1024x1024) _ hz]

/-- The first point of a run: zeros are stored, read back, and the product of the blocks is added. -/
theorem sout_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz]
  simp only [View.readAt_eq_ld, h3.read_unread, h4.read_unread, View.ld_unit_zero (S := S1024x1024) hz,
    View.readCov_unit_zero (S := S1024x1024) _ hz]

end Cert.KernelIdeal.KValue

end
-- ==== Proof.KernelPayload.lean ====
import proofs.«161103_j13795434954806_1_alg».proof.Proof.Gen.KernelIdeal.Skeleton
import Idealize.ShloMosaic.Lib.ValueIdx
import Idealize.ShloMosaic.Lib.Pipeline.Value
import Idealize.ShloMosaic.PureOps.Ideal.Laws

/-!
  The three values the body stores, read at one entry (p, q) of a 1024 × 1024 block, over the extended
  reals: the reset value is 0; the update is the old entry plus the inner product of row p of the left
  block with column q of the right block; the clipped value is the maximum of the entry and 0.
-/

noncomputable section

namespace Cert.KernelIdeal.KValue

open Cert.KernelIdeal Cert.KernelIdeal.Gen Idealize.ShloMosaic Idealize.ShloMosaic.ValueIdx

/-! The operand indices of the block product: the left operand is read at (row of the result, k), the
    right operand at (k, column of the result). -/

theorem lhs_axis0 (j : S1024x1024.Idx) (k : dot_S1024x1024_S1024x1024_S1024x1024_1_0_0_1_n_n.contr.Idx) :
    (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

theorem lhs_axis1 (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val :=
  dot_S1024x1024_S1024x1024_S1024x1024_1_0_0_1_n_n.lhsIdx_val_of_single rfl j k

theorem rhs_axis0 (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val :=
  dot_S1024x1024_S1024x1024_S1024x1024_1_0_0_1_n_n.rhsIdx_val_of_single rfl j k

theorem rhs_axis1 (j : S1024x1024.Idx) (k : dot_S1024x1024_S1024x1024_S1024x1024_1_0_0_1_n_n.contr.Idx) :
    (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two blocks accumulated into zero, at entry (p, q): the inner product of row p and
    column q. -/
theorem blockProduct_apply (x0 x1 : FVec Ideal S1024x1024 .bf16) (p q : Fin 1024) :
    matmul dot_S1024x1024_S1024x1024_S1024x1024_1_0_0_1_n_n none x0 x1 (constant (F := Ideal) S1024x1024 .f32 0x00000000#32) (ix2 p q)
      = ∑ kk : Fin 1024, x0 (ix2 p kk) * x1 (ix2 kk q) := by
  refine (Ideal.matmul_constant_zero_apply dot_S1024x1024_S1024x1024_S1024x1024_1_0_0_1_n_n none x0 x1 (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The reset value is zero everywhere. -/
theorem pay1_apply (p q : Fin 1024) : (k0_pay1 (F := Ideal)) (ix2 p q) = 0 := by
  unfold k0_pay1
  rw [shapeCast_self]
  exact Ideal.ofBits_zero_f32

/-- The update: the old entry plus the inner product of row p of the left block and column q of the
    right block. -/
theorem pay2_apply (acc : FVec Ideal S1024x1024 .f32) (x0 x1 : FVec Ideal S1024x1024 .bf16) (p q : Fin 1024) :
    k0_pay2 acc x0 x1 (ix2 p q) = acc (ix2 p q) + ∑ kk : Fin 1024, x0 (ix2 p kk) * x1 (ix2 kk q) := by
  unfold k0_pay2
  rw [shapeCast_self, shapeCast_self, shapeCast_self]
  exact congrArg (acc (ix2 p q) + ·) (blockProduct_apply x0 x1 p q)

/-- The clipped value: the maximum of the entry and zero. -/
theorem pay3_apply (v : FVec Ideal S1024x1024 .f32) (p q : Fin 1024) :
    k0_pay3 v (ix2 p q) = max (v (ix2 p q)) 0 := by
  unfold k0_pay3
  exact congrArg (max (v (ix2 p q)) ·) Ideal.ofBits_zero_f32

end Cert.KernelIdeal.KValue

end
-- ==== Proof.KernelBlocks.lean ====
import proofs.«161103_j13795434954806_1_alg».proof.Proof.Gen.KernelIdeal.Value
import Idealize.ShloMosaic.Lib.ValueIdx
import Idealize.ShloMosaic.Lib.Pipeline.Value

/-!
  Where a block sits in its array.

  The grid has 8 × 4 × 4 points, numbered row-major: point t has coordinates
  (i, j, k) = (t / 16, (t / 4) % 4, t % 4).  At that point the left factor's block is block (i, k) of the
  8192 × 4096 array, the right factor's block is block (k, j) of the 4096 × 4096 array, and the result's
  block is block (i, j) of the 8192 × 4096 result.  Entry (p, q) of block (a, b) is entry
  (1024·a + p, 1024·b + q) of the array.
-/

set_option Elab.async false

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The left factor's block at a point, as a 1024 × 1024 table of extended reals. -/
abbrev lblk (c : Dev nD) (t : Fin cfg0.N) : S1024x1024.Idx → EReal := iblk m c 0 t
/-- The right factor's block at a point. -/
abbrev rblk (c : Dev nD) (t : Fin cfg0.N) : S1024x1024.Idx → EReal := iblk m c 1 t
/-- The left factor, as the kernel finds it. -/
abbrev larr (c : Dev nD) : S8192x4096.Idx → EReal := V m c main_v19
/-- The right factor, as the kernel finds it. -/
abbrev rarr (c : Dev nD) : S4096x4096.Idx → EReal := V m c main_v20

/-- The left factor's block at point t is block (t / 16, t % 4). -/
theorem block_index_l : ∀ t : Fin cfg0.N,
    win0_0.index t (0 : Fin 2) = t.val / 16 ∧ win0_0.index t (1 : Fin 2) = t.val % 4 :=
  (by decide +kernel : ∀ t : Fin grid0.N, _)

/-- The right factor's block at point t is block (t % 4, (t / 4) % 4). -/
theorem block_index_r : ∀ t : Fin cfg0.N,
    win0_1.index t (0 : Fin 2) = t.val % 4 ∧ win0_1.index t (1 : Fin 2) = t.val / 4 % 4 :=
  (by decide +kernel : ∀ t : Fin grid0.N, _)

/-- The result's block at point t is block (t / 16, (t / 4) % 4). -/
theorem block_index_o : ∀ t : Fin cfg0.N,
    win0_2.index t (0 : Fin 2) = t.val / 16 ∧ win0_2.index t (1 : Fin 2) = t.val / 4 % 4 :=
  (by decide +kernel : ∀ t : Fin grid0.N, _)

/-- Entry (p, kk) of the left block at point t sits at (1024·(t/16) + p, 1024·(t%4) + kk). -/
theorem lblk_emb (t : Fin cfg0.N) (p kk : Fin 1024) (r : Fin 8192) (k : Fin 4096)
    (hr : r.val = 1024 * (t.val / 16) + p.val) (hk : k.val = 1024 * (t.val % 4) + kk.val) :
    ((cfg0.win 0).blk t).view.emb (ix2 p kk) = ix2 r k := by
  funext a; apply Fin.ext
  obtain ⟨e0, e1⟩ := block_index_l t
  match a with
  | ⟨0, _⟩ => show win0_0.index t (0 : Fin 2) * 1024 + 1 * p.val = r.val; omega
  | ⟨1, _⟩ => show win0_0.index t (1 : Fin 2) * 1024 + 1 * kk.val = k.val; omega

/-- Entry (kk, q) of the right block at point t sits at (1024·(t%4) + kk, 1024·((t/4)%4) + q). -/
theorem rblk_emb (t : Fin cfg0.N) (kk q : Fin 1024) (k : Fin 4096) (cc : Fin 4096)
    (hk : k.val = 1024 * (t.val % 4) + kk.val) (hc : cc.val = 1024 * (t.val / 4 % 4) + q.val) :
    ((cfg0.win 1).blk t).view.emb (ix2 kk q) = ix2 k cc := by
  funext a; apply Fin.ext
  obtain ⟨e0, e1⟩ := block_index_r t
  match a with
  | ⟨0, _⟩ => show win0_1.index t (0 : Fin 2) * 1024 + 1 * kk.val = k.val; omega
  | ⟨1, _⟩ => show win0_1.index t (1 : Fin 2) * 1024 + 1 * q.val = cc.val; omega

/-- Entry (p, q) of the result block at point t sits at (1024·(t/16) + p, 1024·((t/4)%4) + q). -/
theorem oblk_emb (t : Fin cfg0.N) (p q : Fin 1024) (r : Fin 8192) (cc : Fin 4096)
    (hr : r.val = 1024 * (t.val / 16) + p.val) (hc : cc.val = 1024 * (t.val / 4 % 4) + q.val) :
    ((cfg0.win 2).blk t).view.emb (ix2 p q) = ix2 r cc := by
  funext a; apply Fin.ext
  obtain ⟨e0, e1⟩ := block_index_o t
  match a with
  | ⟨0, _⟩ => show win0_2.index t (0 : Fin 2) * 1024 + 1 * p.val = r.val; omega
  | ⟨1, _⟩ => show win0_2.index t (1 : Fin 2) * 1024 + 1 * q.val = cc.val; omega

/-- Any table read through the left window's block at point t. -/
theorem lread (t : Fin cfg0.N) (X : S8192x4096.Idx → EReal) (p kk : Fin 1024) (r : Fin 8192) (k : Fin 4096)
    (hr : r.val = 1024 * (t.val / 16) + p.val) (hk : k.val = 1024 * (t.val % 4) + kk.val) :
    ((cfg0.win 0).blk t).view.read (Elt Ideal) X (ix2 p kk) = X (ix2 r k) := by
  show X (((cfg0.win 0).blk t).view.emb (ix2 p kk)) = X (ix2 r k)
  rw [lblk_emb t p kk r k hr hk]

/-- Any table read through the right window's block at point t. -/
theorem rread (t : Fin cfg0.N) (X : S4096x4096.Idx → EReal) (kk q : Fin 1024) (k : Fin 4096) (cc : Fin 4096)
    (hk : k.val = 1024 * (t.val % 4) + kk.val) (hc : cc.val = 1024 * (t.val / 4 % 4) + q.val) :
    ((cfg0.win 1).blk t).view.read (Elt Ideal) X (ix2 kk q) = X (ix2 k cc) := by
  show X (((cfg0.win 1).blk t).view.emb (ix2 kk q)) = X (ix2 k cc)
  rw [rblk_emb t kk q k cc hk hc]

/-- Any table read through the result window's block at point t. -/
theorem oread (t : Fin cfg0.N) (X : S8192x4096.Idx → EReal) (p q : Fin 1024) (r : Fin 8192) (cc : Fin 4096)
    (hr : r.val = 1024 * (t.val / 16) + p.val) (hc : cc.val = 1024 * (t.val / 4 % 4) + q.val) :
    ((cfg0.win 2).blk t).view.read (Elt Ideal) X (ix2 p q) = X (ix2 r cc) := by
  show X (((cfg0.win 2).blk t).view.emb (ix2 p q)) = X (ix2 r cc)
  rw [oblk_emb t p q r cc hr hc]

/-- The left block is the left factor read through the left window's block. -/
theorem lblk_eq (c : Dev nD) (t : Fin cfg0.N) :
    lblk m c t = ((cfg0.win 0).blk t).view.read (Elt Ideal) (larr m c) := rfl

/-- The right block is the right factor read through the right window's block. -/
theorem rblk_eq (c : Dev nD) (t : Fin cfg0.N) :
    rblk m c t = ((cfg0.win 1).blk t).view.read (Elt Ideal) (rarr m c) := rfl

/-- Entry (p, kk) of the left block at point t is entry (1024·(t/16) + p, 1024·(t%4) + kk) of the left factor. -/
theorem lblk_apply (c : Dev nD) (t : Fin cfg0.N) (p kk : Fin 1024) (r : Fin 8192) (k : Fin 4096)
    (hr : r.val = 1024 * (t.val / 16) + p.val) (hk : k.val = 1024 * (t.val % 4) + kk.val) :
    lblk m c t (ix2 p kk) = larr m c (ix2 r k) :=
  (congrFun (lblk_eq m c t) (ix2 p kk)).trans (lread t (larr m c) p kk r k hr hk)

/-- Entry (kk, q) of the right block at point t is entry (1024·(t%4) + kk, 1024·((t/4)%4) + q) of the right factor. -/
theorem rblk_apply (c : Dev nD) (t : Fin cfg0.N) (kk q : Fin 1024) (k : Fin 4096) (cc : Fin 4096)
    (hk : k.val = 1024 * (t.val % 4) + kk.val) (hc : cc.val = 1024 * (t.val / 4 % 4) + q.val) :
    rblk m c t (ix2 kk q) = rarr m c (ix2 k cc) :=
  (congrFun (rblk_eq m c t) (ix2 kk q)).trans (rread t (rarr m c) kk q k cc hk hc)

end Cert.KernelIdeal.KValue

end
-- ==== Proof.Spec.lean ====
/-
  The function both programs compute, on the extended reals: a product of an 8192 × 4096 matrix with a
  4096 × 4096 matrix followed by a pointwise maximum with zero,

      out[r, c] = max (∑ k, X[r, k] · W[k, c]) 0.

  Stated once, over literal shapes, so that the kernel's side (an accumulation over four blocks of 1024
  columns) and the reference's side (one contraction over all 4096) are both compared with this one term.
-/
import Idealize.ShloMosaic.PureOps.Ideal
import Idealize.ShloMosaic.Lib.ValueIdx

noncomputable section

namespace Cert.Spec

open Idealize.ShloMosaic Idealize.ShloMosaic.ValueIdx

/-- The shape of the left factor and of the result. -/
abbrev SX : Shape := ⟨2, ![8192, 4096]⟩
/-- The shape of the right factor. -/
abbrev SW : Shape := ⟨2, ![4096, 4096]⟩

/-- `max (X · W) 0`, entry by entry. -/
def gemmRelu (X : SX.Idx → EReal) (W : SW.Idx → EReal) : SX.Idx → EReal :=
  fun i => max (∑ k : Fin 4096, X (ix2 (i 0) k) * W (ix2 k (i 1))) 0

theorem gemmRelu_apply (X : SX.Idx → EReal) (W : SW.Idx → EReal) (r : Fin 8192) (c : Fin 4096) :
    gemmRelu X W (ix2 r c) = max (∑ k : Fin 4096, X (ix2 r k) * W (ix2 k c)) 0 := rfl

end Cert.Spec

end
-- ==== Proof.KernelSum.lean ====
import proofs.«161103_j13795434954806_1_alg».proof.Proof.Spec
import Mathlib.Algebra.BigOperators.Fin

/-!
  A contraction over 4096 columns as four contractions over 1024 columns.

  Entries of the two factors are read through accessors that are defined for every pair of naturals (zero
  outside the array), so that sums over ranges of naturals can be split and re-joined without carrying
  bound proofs inside the summand.
-/

noncomputable section

namespace Cert.KernelIdeal.KValue

open Idealize.ShloMosaic Idealize.ShloMosaic.ValueIdx Finset
open Cert.Spec (SX SW)

/-- A sum over `b·a` consecutive naturals is the sum over `a` consecutive runs of length `b`. -/
theorem sum_runs {M : Type*} [AddCommMonoid M] (f : ℕ → M) (b : ℕ) :
    ∀ a : ℕ, ∑ s ∈ range a, ∑ k ∈ range b, f (b * s + k) = ∑ k ∈ range (b * a), f k
  | 0 => by simp
  | a + 1 => by rw [sum_range_succ, sum_runs f b a, Nat.mul_succ, sum_range_add]

/-- Entry (r, k) of the left factor; zero outside the array. -/
def entryL (X : SX.Idx → EReal) (r k : ℕ) : EReal :=
  if h : r < 8192 ∧ k < 4096 then X (ix2 ⟨r, h.1⟩ ⟨k, h.2⟩) else 0

/-- Entry (k, c) of the right factor; zero outside the array. -/
def entryR (W : SW.Idx → EReal) (k c : ℕ) : EReal :=
  if h : k < 4096 ∧ c < 4096 then W (ix2 ⟨k, h.1⟩ ⟨c, h.2⟩) else 0

theorem entryL_eq (X : SX.Idx → EReal) (r : Fin 8192) (k : Fin 4096) : entryL X r.val k.val = X (ix2 r k) :=
  dif_pos ⟨r.isLt, k.isLt⟩

theorem entryR_eq (W : SW.Idx → EReal) (k : Fin 4096) (c : Fin 4096) : entryR W k.val c.val = W (ix2 k c) :=
  dif_pos ⟨k.isLt, c.isLt⟩

/-- The inner product of row `r` of the left factor with column `c` of the right factor, summed as four
    consecutive stretches of 1024 columns, is the inner product over all 4096 columns. -/
theorem contraction_runs (X : SX.Idx → EReal) (W : SW.Idx → EReal) (r : Fin 8192) (c : Fin 4096) :
    ∑ s ∈ range 4, ∑ kk : Fin 1024, entryL X r.val (1024 * s + kk.val) * entryR W (1024 * s + kk.val) c.val
      = ∑ k : Fin 4096, X (ix2 r k) * W (ix2 k c) := by
  have h1 : ∀ s : ℕ, ∑ kk : Fin 1024, entryL X r.val (1024 * s + kk.val) * entryR W (1024 * s + kk.val) c.val
      = ∑ kk ∈ range 1024, (fun k => entryL X r.val k * entryR W k c.val) (1024 * s + kk) := fun s =>
    Fin.sum_univ_eq_sum_range (fun kk => entryL X r.val (1024 * s + kk) * entryR W (1024 * s + kk) c.val) 1024
  rw [Finset.sum_congr rfl fun s _ => h1 s, sum_runs (fun k => entryL X r.val k * entryR W k c.val) 1024 4,
    ← Fin.sum_univ_eq_sum_range (fun k => entryL X r.val k * entryR W k c.val) (1024 * 4)]
  show ∑ k : Fin 4096, entryL X r.val k.val * entryR W k.val c.val = _
  exact Finset.sum_congr rfl fun k _ => by rw [entryL_eq, entryR_eq]

end Cert.KernelIdeal.KValue

end
-- ==== Proof.KernelAcc.lean ====
import proofs.«161103_j13795434954806_1_alg».proof.Proof.KernelPieces
import proofs.«161103_j13795434954806_1_alg».proof.Proof.KernelPayload
import proofs.«161103_j13795434954806_1_alg».proof.Proof.KernelBlocks
import proofs.«161103_j13795434954806_1_alg».proof.Proof.KernelSum

/-!
  The accumulator, point by point.

  The 128 grid points fall into 32 runs of four consecutive points; within a run the result block (i, j)
  is fixed and the contraction block k goes 0, 1, 2, 3.  After the point with k = s the accumulator's
  entry (p, q) is the sum, over the points of the run so far, of the inner product of row p of that
  point's left block with column q of its right block.  At k = 3 this is the full inner product of row
  1024·i + p of the left factor with column 1024·j + q of the right factor, and the output block receives
  its maximum with zero.
-/

noncomputable section

namespace Cert.KernelIdeal.KValue

open Cert.KernelIdeal Cert.KernelIdeal.Gen Idealize.ShloMosaic Idealize.ShloMosaic.TcCoe Idealize.SL.Sem
open Idealize.ShloMosaic.ValueIdx Finset

variable (m : (ℓ : Loc nD τ sig) → Buf (Elt Ideal) ℓ)

/-- What point `n` adds to entry (p, q) of the accumulator: the inner product of row p of its left block
    with column q of its right block (zero past the grid). -/
def addend (c : Dev nD) (n : ℕ) (p q : Fin 1024) : EReal :=
  if h : n < cfg0.N then ∑ kk : Fin 1024, lblk m c ⟨n, h⟩ (ix2 p kk) * rblk m c ⟨n, h⟩ (ix2 kk q) else 0

theorem addend_of_lt (c : Dev nD) (n : ℕ) (h : n < cfg0.N) (p q : Fin 1024) :
    addend m c n p q = ∑ kk : Fin 1024, lblk m c ⟨n, h⟩ (ix2 p kk) * rblk m c ⟨n, h⟩ (ix2 kk q) := dif_pos h

/-- The first point of a run leaves its own addend. -/
theorem acc_first (c : Dev nD) (t : Fin cfg0.N) (h0 : t.val % 4 = 0) (p q : Fin 1024) :
    (outsAt0 m c t.val t.isLt).2 (ix2 p q) = addend m c t.val p q := by
  have h1 : ¬t.val % 4 = 3 := by omega
  rw [outsAt0_A m c t h0 h1]
  dsimp only
  refine (congrFun (sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 p q)).trans ?_
  refine (pay2_apply (k0_pay1 (F := Ideal)) (lblk m c t) (rblk m c t) p q).trans ?_
  rw [pay1_apply, zero_add, addend_of_lt m c t.val t.isLt p q]

/-- Every other point adds its addend to what the point before left. -/
theorem acc_next (c : Dev nD) (n : ℕ) (h : n + 1 < cfg0.N) (h0 : ¬(n + 1) % 4 = 0) (p q : Fin 1024) :
    (outsAt0 m c (n + 1) h).2 (ix2 p q)
      = (outsAt0 m c n (Nat.lt_of_succ_lt h)).2 (ix2 p q) + addend m c (n + 1) p q := by
  rw [addend_of_lt m c (n + 1) h p q]
  by_cases h1 : (n + 1) % 4 = 3
  · rw [outsAt0_C m c ⟨n + 1, h⟩ h0 h1]
    dsimp only
    refine (congrFun (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2) (ix2 p q)).trans ?_
    exact pay2_apply (outsAt0 m c n (Nat.lt_of_succ_lt h)).2 (lblk m c ⟨n + 1, h⟩) (rblk m c ⟨n + 1, h⟩) p q
  · rw [outsAt0_B m c ⟨n + 1, h⟩ h0 h1]
    dsimp only
    refine (congrFun (sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2) (ix2 p q)).trans ?_
    exact pay2_apply (outsAt0 m c n (Nat.lt_of_succ_lt h)).2 (lblk m c ⟨n + 1, h⟩) (rblk m c ⟨n + 1, h⟩) p q

/-- After point `n` the accumulator holds the sum of the addends of its run's points up to `n`. -/
theorem acc_eq (c : Dev nD) (p q : Fin 1024) : ∀ (n : ℕ) (h : n < cfg0.N),
    (outsAt0 m c n h).2 (ix2 p q) = ∑ s ∈ range (n % 4 + 1), addend m c (4 * (n / 4) + s) p q
  | 0, h => by
    rw [acc_first m c ⟨0, h⟩ rfl p q]
    show addend m c 0 p q = ∑ s ∈ range 1, addend m c (4 * (0 / 4) + s) p q
    rw [Finset.sum_range_one]
  | n + 1, h => by
    by_cases h0 : (n + 1) % 4 = 0
    · rw [acc_first m c ⟨n + 1, h⟩ h0 p q, h0, Finset.sum_range_one]
      show addend m c (n + 1) p q = addend m c (4 * ((n + 1) / 4) + 0) p q
      have e : 4 * ((n + 1) / 4) + 0 = n + 1 := by omega
      rw [e]
    · rw [acc_next m c n h h0 p q, acc_eq c p q n (Nat.lt_of_succ_lt h)]
      have e1 : (n + 1) % 4 + 1 = (n % 4 + 1) + 1 := by omega
      have e2 : (n + 1) / 4 = n / 4 := by omega
      have e3 : 4 * (n / 4) + (n % 4 + 1) = n + 1 := by omega
      rw [e1, e2, Finset.sum_range_succ (fun s => addend m c (4 * (n / 4) + s) p q) (n % 4 + 1), e3]

/-- A point's addend, in entries of the two factors. -/
theorem addend_eq (c : Dev nD) (n : ℕ) (h : n < cfg0.N) (p q : Fin 1024) :
    addend m c n p q = ∑ kk : Fin 1024,
      entryL (larr m c) (1024 * (n / 16) + p.val) (1024 * (n % 4) + kk.val)
        * entryR (rarr m c) (1024 * (n % 4) + kk.val) (1024 * (n / 4 % 4) + q.val) := by
  have hN : n < 128 := lt_of_lt_of_eq h N_0
  rw [addend_of_lt m c n h p q]
  refine Finset.sum_congr rfl fun kk _ => ?_
  have hp : p.val < 1024 := p.isLt
  have hq : q.val < 1024 := q.isLt
  have hkk : kk.val < 1024 := kk.isLt
  exact congrArg₂ (· * ·)
    ((lblk_apply m c ⟨n, h⟩ p kk ⟨1024 * (n / 16) + p.val, by omega⟩ ⟨1024 * (n % 4) + kk.val, by omega⟩ rfl rfl).trans
      (entryL_eq (larr m c) ⟨1024 * (n / 16) + p.val, by omega⟩ ⟨1024 * (n % 4) + kk.val, by omega⟩).symm)
    ((rblk_apply m c ⟨n, h⟩ kk q ⟨1024 * (n % 4) + kk.val, by omega⟩ ⟨1024 * (n / 4 % 4) + q.val, by omega⟩ rfl rfl).trans
      (entryR_eq (rarr m c) ⟨1024 * (n % 4) + kk.val, by omega⟩ ⟨1024 * (n / 4 % 4) + q.val, by omega⟩).symm)

/-- At the last point of a run the accumulator's entry (p, q) is the full inner product of the row and
    the column that entry stands for. -/
theorem acc_last (c : Dev nD) (t : Fin cfg0.N) (h1 : t.val % 4 = 3) (p q : Fin 1024) (r : Fin 8192) (cc : Fin 4096)
    (hr : r.val = 1024 * (t.val / 16) + p.val) (hc : cc.val = 1024 * (t.val / 4 % 4) + q.val) :
    (outsAt0 m c t.val t.isLt).2 (ix2 p q) = ∑ k : Fin 4096, larr m c (ix2 r k) * rarr m c (ix2 k cc) := by
  have hN : t.val < 128 := lt_of_lt_of_eq t.isLt N_0
  rw [acc_eq m c p q t.val t.isLt, h1, ← contraction_runs (larr m c) (rarr m c) r cc]
  refine Finset.sum_congr rfl fun s hs => ?_
  have hs4 : s < 4 := Finset.mem_range.mp hs
  have hn : 4 * (t.val / 4) + s < cfg0.N := lt_of_lt_of_eq (by omega) N_0.symm
  have e1 : (4 * (t.val / 4) + s) / 16 = t.val / 16 := by omega
  have e2 : (4 * (t.val / 4) + s) % 4 = s := by omega
  have e3 : (4 * (t.val / 4) + s) / 4 % 4 = t.val / 4 % 4 := by omega
  rw [addend_eq m c (4 * (t.val / 4) + s) hn p q, e1, e2, e3, hr, hc]

/-- … and the output block's entry is its maximum with zero. -/
theorem out_last (c : Dev nD) (t : Fin cfg0.N) (h1 : t.val % 4 = 3) (p q : Fin 1024) :
    (outsAt0 m c t.val t.isLt).1 (ix2 p q) = max ((outsAt0 m c t.val t.isLt).2 (ix2 p q)) 0 := by
  have h0 : ¬t.val % 4 = 0 := by omega
  rw [outsAt0_C m c t h0 h1]
  dsimp only
  refine (congrFun (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 p q)).trans ?_
  refine (pay3_apply _ p q).trans ?_
  refine congrArg (max · 0) ?_
  exact (congrFun (sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 p q)).symm

end Cert.KernelIdeal.KValue

end
-- ==== Proof.KernelValue.lean ====
import proofs.«161103_j13795434954806_1_alg».proof.Proof.Gen.KernelIdeal.Value
import proofs.«161103_j13795434954806_1_alg».proof.Proof.KernelAcc
import Idealize.ShloMosaic.Lib.ValueIdx
import Idealize.ShloMosaic.Lib.Pipeline.Value

/-!
  The kernel's result array.

  The result block (i, j) is written back once, at the last point 16·i + 4·j + 3 of its run, and what is
  written there is, entry by entry, the maximum with zero of the inner product of a row of the left factor
  with a column of the right factor.  The 8 × 4 result blocks tile the 8192 × 4096 array, so the array
  ends as `max (X · W) 0`.
-/

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The function the result array ends holding. -/
abbrev target (c : Dev nD) : S8192x4096.Idx → EReal :=
  Cert.Spec.gemmRelu (larr m c) (rarr m c)

/-- Two 1024 × 1024 tables that agree at every pair of coordinates are equal. -/
theorem block_ext (f g : S1024x1024.Idx → EReal) (h : ∀ p q : Fin 1024, f (ix2 p q) = g (ix2 p q)) : f = g :=
  funext fun j => by rw [eq_ix2 j]; exact h _ _

/-- The result window's blocks are whole blocks: what is written back from a staged block is the block. -/
theorem ocut (t : Fin cfg0.N) (Y : S1024x1024.Idx → EReal) (p q : Fin 1024) :
    (cfg0.win 2).cut (grid0.coords t) Y (ix2 p q) = Y (ix2 p q) := rfl

/-- What a write-back writes is the block of the target function it stands for. -/
theorem flushed_eq (c : Dev nD) (t : Fin cfg0.N) (hf : (cfg0.win 2).flush t = true) :
    (dats m 0 c).flushed 2 t = ((cfg0.win 2).blk t).view.read (Elt Ideal) (target m c) := by
  have h1 : t.val % 4 = 3 := (flush0_2 t).mp hf
  have hN : t.val < 128 := lt_of_lt_of_eq t.isLt N_0
  rw [Value.flushed2]
  refine block_ext _ _ fun p q => ?_
  have hp : p.val < 1024 := p.isLt
  have hq : q.val < 1024 := q.isLt
  refine (ocut t (outsAt0 m c t.val t.isLt).1 p q).trans ?_
  refine Eq.trans ?_ (oread t (target m c) p q ⟨1024 * (t.val / 16) + p.val, by omega⟩ ⟨1024 * (t.val / 4 % 4) + q.val, by omega⟩ rfl rfl).symm
  refine Eq.trans ?_ (Cert.Spec.gemmRelu_apply (larr m c) (rarr m c) ⟨1024 * (t.val / 16) + p.val, by omega⟩ ⟨1024 * (t.val / 4 % 4) + q.val, by omega⟩).symm
  rw [out_last m c t h1 p q,
    acc_last m c t h1 p q ⟨1024 * (t.val / 16) + p.val, by omega⟩ ⟨1024 * (t.val / 4 % 4) + q.val, by omega⟩ rfl rfl]

/-- An index of the result array lies in point t's block iff each coordinate lies in the block's range. -/
theorem mem_oblk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v21).slice (win0_2.rect t)).set ↔ _
  rw [View.set_slice_whole, Rect.mem_set_unit]
  exact Iff.rfl

/-- Every entry of the result lies in the block of some point that writes back: entry (r, cc) in that of
    point 16·(r / 1024) + 4·(cc / 1024) + 3. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hlt : 16 * ((i 0).val / 1024) + 4 * ((i 1).val / 1024) + 3 < cfg0.N := lt_of_lt_of_eq (by omega) N_0.symm
  refine ⟨⟨16 * ((i 0).val / 1024) + 4 * ((i 1).val / 1024) + 3, hlt⟩, (flush0_2 _).mpr (by dsimp only; omega), ?_⟩
  rw [mem_oblk]
  obtain ⟨e0, e1⟩ := block_index_o ⟨16 * ((i 0).val / 1024) + 4 * ((i 1).val / 1024) + 3, hlt⟩
  dsimp only at e0 e1
  intro a
  match a with
  | ⟨0, _⟩ =>
    show win0_2.index _ (0 : Fin 2) * 1024 ≤ (i 0).val ∧ (i 0).val < win0_2.index _ (0 : Fin 2) * 1024 + 1024
    omega
  | ⟨1, _⟩ =>
    show win0_2.index _ (1 : Fin 2) * 1024 ≤ (i 1).val ∧ (i 1).val < win0_2.index _ (1 : Fin 2) * 1024 + 1024
    omega

/-- The result array after the run is `max (X · W) 0` of the two factors as the kernel finds them. -/
theorem final (m : (ℓ : Loc nD τ sig) → Buf (Elt Ideal) ℓ) (c : Dev nD) :
    (dats m 0 c).arrAt 2 cfg0.N = Cert.Spec.gemmRelu (V m c main_v19) (V m c main_v20) :=
  (dats m 0 c).arrAt_eq_of_cover 2 (target m c) (flushed_eq m c) covered

end Cert.KernelIdeal.KValue

end
-- ==== Proof.Scatter.lean ====
/-
  Scattering with the two index columns exchanged builds the transposed matrix.

  Both programs build a 4096 × 4096 matrix from 1 600 000 triples (row, column, value) by an accumulating
  scatter into zeros: entry (a, b) is the sum of the values whose index pair is (a, b); a pair outside the
  matrix contributes nothing. One program hands the scatter the pairs as (column, row), the other as
  (row, column). At the exact sums of the extended reals the two results are transposes of each other:
  the set of triples landing on (a, b) through the first pairing is the set landing on (b, a) through the second.
-/
import Idealize.ShloMosaic.PureOps.Ideal
import Idealize.ShloMosaic.Lib.ValueIdx
import Idealize.ShloMosaic.Lib.Pipeline.Value

noncomputable section

namespace Cert.Scatter

open Idealize.ShloMosaic Idealize.ShloMosaic.ValueIdx

/-- The matrix the triples are scattered into. -/
abbrev SW : Shape := ⟨2, ![4096, 4096]⟩
/-- The index pairs, one row per triple. -/
abbrev SI : Shape := ⟨2, ![1600000, 2]⟩
/-- The values, one per triple. -/
abbrev SU : Shape := ⟨1, ![1600000]⟩
/-- One column of index words. -/
abbrev SC : Shape := ⟨2, ![1600000, 1]⟩

/-- The scatter's dimension numbers: every update is a single element, its two index words name the two
    axes of the matrix in order, and the words of one pair lie along axis 1 of the index array. -/
abbrev dims : ScatterDims SW SI SU where
  updateWindowDims := []
  insertedWindowDims := [0, 1]
  scatterDimsToOperandDims := [0, 1]
  indexVectorDim := 1
  wf := by decide

/-- Update `j` reads component `c` of its index pair at row `j`, column `c` of the index array. -/
theorem siIdx_eq (j : SU.Idx) (c : Fin 2) : dims.siIdx j c = ix2 (j 0) c := by
  funext b
  match b with
  | ⟨0, _⟩ =>
    unfold ScatterDims.siIdx
    rw [dif_neg (show ¬ (0 : ℕ) = 1 by decide)]
    unfold ScatterDims.siCoord
    apply Fin.ext
    show (j _).val = (j 0).val
    exact congrArg (fun z => (j z).val) (Subsingleton.elim _ _)
  | ⟨1, _⟩ =>
    unfold ScatterDims.siIdx
    rw [dif_pos (show (1 : ℕ) = 1 from rfl)]
    rfl

/-- The start on axis 0 is the pair's first word, read signed. -/
theorem start0 (j : SU.Idx) (idx : IVec SI 32) : dims.start j idx 0 = (idx (ix2 (j 0) 0)).toInt := by
  have h : (0 : Fin 2) ∈ dims.scatterDimsToOperandDims := by decide
  rw [ScatterDims.start, dif_pos h, siIdx_eq]
  rfl

/-- The start on axis 1 is the pair's second word, read signed. -/
theorem start1 (j : SU.Idx) (idx : IVec SI 32) : dims.start j idx 1 = (idx (ix2 (j 0) 1)).toInt := by
  have h : (1 : Fin 2) ∈ dims.scatterDimsToOperandDims := by decide
  rw [ScatterDims.start, dif_pos h, siIdx_eq]
  rfl

/-- An update is one element: no window coordinate is added to the start. -/
theorem window_eq (j : SU.Idx) (a : Fin 2) : dims.window j a = 0 := rfl

/-- Update `j` lands on entry (a, b) exactly when its two index words, read signed, are `a` and `b`. -/
theorem resultIdx?_eq_some_iff (j : SU.Idx) (idx : IVec SI 32) (a b : Fin 4096) :
    dims.resultIdx? j idx = some (ix2 a b)
      ↔ (idx (ix2 (j 0) 0)).toInt = (a.val : ℤ) ∧ (idx (ix2 (j 0) 1)).toInt = (b.val : ℤ) := by
  unfold ScatterDims.resultIdx?
  constructor
  · intro h
    split at h
    · rename_i hr
      have e := Option.some.inj h
      have e0 := congrArg (fun f => (f 0).val) e
      have e1 := congrArg (fun f => (f 1).val) e
      have r0 := hr 0
      have r1 := hr 1
      simp only [start0, start1, window_eq] at e0 e1 r0 r1
      constructor
      · show _ = ((ix2 a b (0 : Fin 2)).val : ℤ)
        rw [← e0]; simp only [Int.toNat_of_nonneg r0.1, Nat.cast_zero, add_zero] at *; omega
      · show _ = ((ix2 a b (1 : Fin 2)).val : ℤ)
        rw [← e1]; omega
    · exact absurd h (by simp)
  · rintro ⟨h0, h1⟩
    have hr : ∀ a' : Fin 2, 0 ≤ dims.start j idx a' + (dims.window j a' : ℤ)
        ∧ dims.start j idx a' + (dims.window j a' : ℤ) < (SW.size a' : ℤ) := by
      intro a'
      match a' with
      | ⟨0, _⟩ =>
        show 0 ≤ dims.start j idx 0 + _ ∧ dims.start j idx 0 + _ < _
        rw [start0, window_eq, h0]; have := a.isLt; constructor <;> simp <;> omega
      | ⟨1, _⟩ =>
        show 0 ≤ dims.start j idx 1 + _ ∧ dims.start j idx 1 + _ < _
        rw [start1, window_eq, h1]; have := b.isLt; constructor <;> simp <;> omega
    rw [dif_pos hr]
    congr 1
    funext a'
    match a' with
    | ⟨0, _⟩ =>
      apply Fin.ext
      show (dims.start j idx 0 + _).toNat = a.val
      rw [start0, window_eq, h0]; simp
    | ⟨1, _⟩ =>
      apply Fin.ext
      show (dims.start j idx 1 + _).toNat = b.val
      rw [start1, window_eq, h1]; simp

/-- The same for the update numbered `n`, with the row of the index array written as `n` itself. -/
theorem resultIdx?_ix1 (n : Fin 1600000) (idx : IVec SI 32) (a b : Fin 4096) :
    dims.resultIdx? (ix1 n) idx = some (ix2 a b)
      ↔ (idx (ix2 n 0)).toInt = (a.val : ℤ) ∧ (idx (ix2 n 1)).toInt = (b.val : ℤ) :=
  resultIdx?_eq_some_iff (ix1 n) idx a b

/-- THE TRANSPOSITION. If one index array is the other with its two columns exchanged, and the matrices
    scattered into are transposes of each other, then so are the results: the updates landing on (a, b) through
    the first array are those landing on (b, a) through the second, and each side is its start plus their sum. -/
theorem scatterAdd_transpose (x x' : SW.Idx → EReal) (idx idx' : IVec SI 32) (upd : SU.Idx → EReal)
    (h0 : ∀ n : Fin 1600000, idx (ix2 n 0) = idx' (ix2 n 1))
    (h1 : ∀ n : Fin 1600000, idx (ix2 n 1) = idx' (ix2 n 0))
    (hx : ∀ a b : Fin 4096, x (ix2 a b) = x' (ix2 b a)) (a b : Fin 4096) :
    Ideal.hostScatterAdd dims x idx upd (ix2 a b) = Ideal.hostScatterAdd dims x' idx' upd (ix2 b a) := by
  unfold Ideal.hostScatterAdd
  rw [hx a b]
  refine congrArg (x' (ix2 b a) + ·) ?_
  rw [Finset.sum_filter, Finset.sum_filter]
  refine Finset.sum_congr rfl fun j _ => if_congr ?_ rfl rfl
  obtain ⟨n, rfl⟩ : ∃ n : Fin 1600000, j = ix1 n := ⟨j 0, eq_ix1 j⟩
  rw [resultIdx?_ix1, resultIdx?_ix1, h0 n, h1 n]
  exact and_comm

/-! ## The index array as two columns side by side -/

/-- Two columns of index words set side by side, read in the first column: the first operand's word. -/
theorem pair_apply0 (u v : IVec SU 32) (hb : SU.BroadcastsInDim SC ![0]) (hc : Shape.Concatenates [SC, SC] SI 1)
    (n : Fin 1600000) :
    concatenate SI 1 [⟨SC, broadcastInDim SC ![0] hb u⟩, ⟨SC, broadcastInDim SC ![0] hb v⟩] hc (ix2 n 0) = u (ix1 n) := by
  refine (concatenate_pair_apply_left (t := SI) (s₁ := SC) (s₂ := SC) (1 : Fin 2) _ _ hc (ix2 n 0) rfl (ix2 n 0) (fun b => by
    match b with
    | ⟨0, _⟩ => rfl
    | ⟨1, _⟩ => rfl)).trans ?_
  exact broadcastInDim_apply _ hb u _ (ix1 n) (fun a => by
    match a with
    | ⟨0, _⟩ => rfl)

/-- … and in the second column: the second operand's word. -/
theorem pair_apply1 (u v : IVec SU 32) (hb : SU.BroadcastsInDim SC ![0]) (hc : Shape.Concatenates [SC, SC] SI 1)
    (n : Fin 1600000) :
    concatenate SI 1 [⟨SC, broadcastInDim SC ![0] hb u⟩, ⟨SC, broadcastInDim SC ![0] hb v⟩] hc (ix2 n 1) = v (ix1 n) := by
  refine (concatenate_pair_apply_right (t := SI) (s₁ := SC) (s₂ := SC) (1 : Fin 2) _ _ hc (ix2 n 1) rfl rfl (ix2 n 0)
    (fun b hb' => by
      match b with
      | ⟨0, _⟩ => rfl
      | ⟨1, _⟩ => exact absurd rfl hb')
    rfl).trans ?_
  exact broadcastInDim_apply _ hb v _ (ix1 n) (fun a => by
    match a with
    | ⟨0, _⟩ => rfl)

end Cert.Scatter

end
-- ==== Proof.KernelHost.lean ====
/-
  What the kernel's matrix product is handed. Before the tiled product runs, the program narrows `x` to bf16 —
  the identity on the extended reals — and builds its right factor by the accumulating scatter of the values
  into zeros, the index pairs taken as (column, row), narrowed likewise. So the left factor is `x` itself and
  the right factor is the exact scatter through the exchanged pairs.
-/
import proofs.«161103_j13795434954806_1_alg».proof.Proof.Gen.KernelIdeal.Frame
import proofs.«161103_j13795434954806_1_alg».proof.Proof.Scatter
import Idealize.ShloMosaic.Lib.StableHlo.Run
import Idealize.ShloMosaic.PureOps.Ideal.Laws

noncomputable section

namespace Cert.KernelIdeal.KHost

open Cert.KernelIdeal Cert.KernelIdeal.Gen
open Idealize.ShloMosaic Idealize.ShloMosaic.TcCoe Idealize.SL.Sem Idealize.ShloMosaic.StableHlo
open Idealize.ShloMosaic.ValueIdx

/-- One column of the index array (the slice at offsets `off`), negative words wrapped by the extent 4096:
    `w < 0 ? w + 4096 : w`. -/
def wrapped (off : Fin 2 → ℕ) (hs : S1600000x2.Slices off S1600000x1)
    (x1 : (⟨S1600000x2, .i32⟩ : BufTy).Contents (Elt Ideal)) : (⟨S1600000, .i32⟩ : BufTy).Contents (Elt Ideal) :=
  select (cmpi .slt (shapeCast S1600000 (extractStridedSlice S1600000x1 off x1 hs) shapeCasts_S1600000x1_S1600000)
      (broadcastInDim S1600000 ![] bcast_S_S1600000 (constantI S_ 32 0#32)))
    (addi (shapeCast S1600000 (extractStridedSlice S1600000x1 off x1 hs) shapeCasts_S1600000x1_S1600000)
      (broadcastInDim S1600000 ![] bcast_S_S1600000 (constantI S_ 32 4096#32)))
    (shapeCast S1600000 (extractStridedSlice S1600000x1 off x1 hs) shapeCasts_S1600000x1_S1600000)

/-- The wrapped row words (column 0 of the index array). -/
abbrev rowWords (x1 : (⟨S1600000x2, .i32⟩ : BufTy).Contents (Elt Ideal)) := wrapped ![0, 0] slices_S1600000x2_S1600000x1_0_0 x1
/-- The wrapped column words (column 1 of the index array). -/
abbrev colWords (x1 : (⟨S1600000x2, .i32⟩ : BufTy).Contents (Elt Ideal)) := wrapped ![0, 1] slices_S1600000x2_S1600000x1_0_1 x1

/-- Two word vectors set side by side as the two columns of an index array. -/
abbrev sideBySide (u v : (⟨S1600000, .i32⟩ : BufTy).Contents (Elt Ideal)) : (⟨S1600000x2, .i32⟩ : BufTy).Contents (Elt Ideal) :=
  concatenate S1600000x2 1 [⟨S1600000x1, broadcastInDim S1600000x1 ![0] bcast_S1600000_S1600000x1_0 u⟩,
    ⟨S1600000x1, broadcastInDim S1600000x1 ![0] bcast_S1600000_S1600000x1_0 v⟩] concatenates_S1600000x1_S1600000x1_S1600000x2_d1

theorem side_col0 (u v : (⟨S1600000, .i32⟩ : BufTy).Contents (Elt Ideal)) (n : Fin 1600000) :
    sideBySide u v (ix2 n 0) = u (ix1 n) :=
  Cert.Scatter.pair_apply0 _ _ _ _ n

theorem side_col1 (u v : (⟨S1600000, .i32⟩ : BufTy).Contents (Elt Ideal)) (n : Fin 1600000) :
    sideBySide u v (ix2 n 1) = v (ix1 n) :=
  Cert.Scatter.pair_apply1 _ _ _ _ n

/-- Narrowing a whole array to bf16 is the identity on the extended reals. -/
theorem narrow_id {s : Shape} (x : s.Idx → EReal) (h : FTy.bits .bf16 < FTy.bits .f32) :
    (truncf (F := Ideal) (φ := .f32) .bf16 x h : s.Idx → EReal) = x := rfl

/-- The accumulating scatter on the extended reals is each entry plus the exact sum of the updates landing on it. -/
theorem scatterAdd_ideal {s si u : Shape} {w : ℕ} (d : ScatterDims s si u) (x : s.Idx → EReal) (idx : IVec si w) (upd : u.Idx → EReal) :
    (Host.scatterAdd (F := Ideal) (φ := .f32) d x idx upd : s.Idx → EReal) = Ideal.hostScatterAdd d x idx upd := rfl

/-- The program's scatter dimension numbers are those of `Cert.Scatter.dims`. -/
theorem dims_eq : scatter_S4096x4096_S1600000x2_S1600000_n_01_01_1 = Cert.Scatter.dims := rfl

/-- The scatter starts from zeros. -/
theorem zeros_eq : (broadcastInDim S4096x4096 ![] bcast_S_S4096x4096 (constant (F := Ideal) S_ .f32 0x00000000#32) : S4096x4096.Idx → EReal)
    = fun _ => (0 : EReal) := by
  funext i
  exact Ideal.ofBits_zero_f32

variable (m : (ℓ : Loc nD τ sig) → Buf (Elt Ideal) ℓ)

set_option maxHeartbeats 4000000 in
/-- The left factor the product reads is `x`: narrowing to bf16 changes nothing on the extended reals. -/
theorem left_eq (c : Dev nD) :
    (V m c main_v19 : S8192x4096.Idx → EReal) = m ((c.tc : Thread nD τ).loc main_arg0) := by
  show StableHlo.after hostOps0 (fun b => m (c, b)) (Proc.devRef .tc main_v19) = _
  after_results
  rfl

set_option maxHeartbeats 4000000 in
/-- The right factor the product reads, as the program's operations compose it: the scatter of the values into
    zeros through two word vectors side by side — the wrapped column words first, the wrapped row words second —,
    narrowed. -/
theorem right_raw (c : Dev nD) : ∃ u v : (⟨S1600000, .i32⟩ : BufTy).Contents (Elt Ideal),
    (V m c main_v20 : S4096x4096.Idx → EReal)
      = truncf .bf16 (Host.scatterAdd (F := Ideal) scatter_S4096x4096_S1600000x2_S1600000_n_01_01_1
          (broadcastInDim S4096x4096 ![] bcast_S_S4096x4096 (constant S_ .f32 0x00000000#32))
          (sideBySide u v) (m (c, Proc.tc.devRef main_arg2))) bitsLt_bf16_f32
    ∧ u = colWords (m (c, Proc.tc.devRef main_arg1)) ∧ v = rowWords (m (c, Proc.tc.devRef main_arg1)) := by
  refine ⟨?u, ?v, ?hV, ?hu, ?hv⟩
  case hV =>
    show StableHlo.after hostOps0 (fun b => m (c, b)) (Proc.devRef .tc main_v20) = _
    after_results
  case hu => rfl
  case hv => rfl

/-- The right factor the product reads is the exact scatter of the values into zeros through the index array whose
    first column holds the wrapped column words and whose second column holds the wrapped row words. -/
theorem right_eq (c : Dev nD) : ∃ u v : (⟨S1600000, .i32⟩ : BufTy).Contents (Elt Ideal),
    (V m c main_v20 : S4096x4096.Idx → EReal)
      = Ideal.hostScatterAdd Cert.Scatter.dims (fun _ => (0 : EReal)) (sideBySide u v) (m ((c.tc : Thread nD τ).loc main_arg2))
    ∧ u = colWords (m ((c.tc : Thread nD τ).loc main_arg1)) ∧ v = rowWords (m ((c.tc : Thread nD τ).loc main_arg1)) := by
  obtain ⟨u, v, hV, hu, hv⟩ := right_raw m c
  refine ⟨u, v, hV.trans ?_, hu, hv⟩
  rw [narrow_id, scatterAdd_ideal, dims_eq, zeros_eq]

end Cert.KernelIdeal.KHost

end
-- ==== Proof.RefValue.lean ====
/-
  The reference, read at an index. Its result at (r, c) is `max (∑ k, x[r, k] · Wt[c, k]) 0`, where `Wt` is the
  matrix its accumulating scatter builds from the triples with the index pairs taken as (row, column): the
  contraction runs over the SECOND axis of both factors, so in terms of the transposed matrix it is the plain
  matrix product of the specification.
-/
import proofs.«161103_j13795434954806_1_alg».proof.Proof.Gen.ReferenceIdeal.Run
import proofs.«161103_j13795434954806_1_alg».proof.Proof.Gen.ReferenceIdeal.Read
import proofs.«161103_j13795434954806_1_alg».proof.Proof.Spec
import proofs.«161103_j13795434954806_1_alg».proof.Proof.Scatter
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The reference's result is the specification's product-and-maximum of `x` with the transpose of the
    matrix its scatter builds. -/
theorem result_eq (x0 : (⟨S8192x4096, .f32⟩ : BufTy).Contents (Elt Ideal)) (x1 : (⟨S1600000x2, .i32⟩ : BufTy).Contents (Elt Ideal))
    (x2 : (⟨S1600000, .f32⟩ : BufTy).Contents (Elt Ideal)) :
    val_main_v20 (F := Ideal) x0 x1 x2
      = Cert.Spec.gemmRelu x0 (fun i => val_main_v18 (F := Ideal) x1 x2 (ix2 (i 1) (i 0))) := by
  funext i
  obtain ⟨r, c, rfl⟩ : ∃ (r : Fin 8192) (c : Fin 4096), i = ix2 r c := ⟨i 0, i 1, eq_ix2 i⟩
  rw [val_main_v20_apply, val_main_v19_apply, val_main_call0_v0_apply, val_main_call0_cst_apply, Cert.Spec.gemmRelu_apply]
  show max _ (Ideal.ofBits .f32 0x00000000#32) = _
  rw [Ideal.ofBits_zero_f32]
  refine congrArg (max · 0) (Finset.sum_congr rfl fun k _ => ?_)
  have el : lidx_main_v19 (ix2 r c) k = ix2 r k := funext fun a => by
    match a with
    | ⟨0, _⟩ => rfl
    | ⟨1, _⟩ => rfl
  have er : ridx_main_v19 (ix2 r c) k = ix2 c k := funext fun a => by
    match a with
    | ⟨0, _⟩ => rfl
    | ⟨1, _⟩ => rfl
  rw [el, er]

/-- The index array the reference scatters through, in its first column: the wrapped row word. -/
theorem pairs_col0 (x1 : (⟨S1600000x2, .i32⟩ : BufTy).Contents (Elt Ideal)) (n : Fin 1600000) :
    val_main_v17 (F := Ideal) x1 (ix2 n 0) = val_main_v9 (F := Ideal) x1 (ix1 n) := by
  unfold val_main_v17 val_main_v15 val_main_v16
  exact Cert.Scatter.pair_apply0 _ _ _ _ n

/-- … and in its second column: the wrapped column word. -/
theorem pairs_col1 (x1 : (⟨S1600000x2, .i32⟩ : BufTy).Contents (Elt Ideal)) (n : Fin 1600000) :
    val_main_v17 (F := Ideal) x1 (ix2 n 1) = val_main_v14 (F := Ideal) x1 (ix1 n) := by
  unfold val_main_v17 val_main_v15 val_main_v16
  exact Cert.Scatter.pair_apply1 _ _ _ _ n

/-- The matrix the reference builds: the exact accumulating scatter of the values into zeros. -/
theorem scattered_eq (x1 : (⟨S1600000x2, .i32⟩ : BufTy).Contents (Elt Ideal)) (x2 : (⟨S1600000, .f32⟩ : BufTy).Contents (Elt Ideal)) :
    val_main_v18 (F := Ideal) x1 x2
      = Ideal.hostScatterAdd Cert.Scatter.dims (fun _ => (0 : EReal)) (val_main_v17 (F := Ideal) x1) x2 := by
  have hz : (val_main_v4 (F := Ideal) : S4096x4096.Idx → EReal) = fun _ => (0 : EReal) := by
    funext i
    rw [val_main_v4_apply, val_main_cst_apply]
    exact Ideal.ofBits_zero_f32
  unfold val_main_v18
  rw [hz]
  rfl

end Cert.ReferenceIdeal.RefValue

end
-- ==== Proof.Bridge.lean ====
/-
  The two programs meet. The kernel multiplies `x` by the matrix scattered through the pairs (column, row);
  the reference contracts `x` with the matrix scattered through the pairs (row, column) along that matrix's
  second axis. The two matrices are transposes of each other (the scatter with its index columns exchanged),
  so both results are one function of the three arguments: `result` below.
-/
import proofs.«161103_j13795434954806_1_alg».proof.Proof.KernelHost
import proofs.«161103_j13795434954806_1_alg».proof.Proof.RefValue

noncomputable section

namespace Cert.Bridge

open Idealize.ShloMosaic Idealize.ShloMosaic.TcCoe Idealize.SL.Sem Idealize.ShloMosaic.ValueIdx

/-- What both programs compute: `max (x · Wtᵀ) 0`, with `Wt` the matrix the reference's scatter builds. -/
def result (x0 : Cert.Spec.SX.Idx → EReal) (x1 : IVec Cert.Scatter.SI 32) (x2 : Cert.Scatter.SU.Idx → EReal) :
    Cert.Spec.SX.Idx → EReal :=
  Cert.Spec.gemmRelu x0 (fun i => Cert.ReferenceIdeal.Read.val_main_v18 (F := Ideal) x1 x2 (ix2 (i 1) (i 0)))

/-- The reference's result is `result`. -/
theorem reference_eq (x0 : Cert.Spec.SX.Idx → EReal) (x1 : IVec Cert.Scatter.SI 32) (x2 : Cert.Scatter.SU.Idx → EReal) :
    Cert.ReferenceIdeal.Read.val_main_v20 (F := Ideal) x0 x1 x2 = result x0 x1 x2 :=
  Cert.ReferenceIdeal.RefValue.result_eq x0 x1 x2

/-- Wrapping a column of index words is the same term in both programs: the row words … -/
theorem rowWords_eq (x1 : IVec Cert.Scatter.SI 32) :
    Cert.KernelIdeal.KHost.rowWords x1 = Cert.ReferenceIdeal.Read.val_main_v9 (F := Ideal) x1 := rfl
/-- … and the column words. -/
theorem colWords_eq (x1 : IVec Cert.Scatter.SI 32) :
    Cert.KernelIdeal.KHost.colWords x1 = Cert.ReferenceIdeal.Read.val_main_v14 (F := Ideal) x1 := rfl

/-- The kernel's right factor — the scatter through (wrapped column word, wrapped row word) — is the transpose of
    the reference's scattered matrix. -/
theorem right_transpose (x1 : IVec Cert.Scatter.SI 32) (x2 : Cert.Scatter.SU.Idx → EReal) (u v : IVec Cert.Scatter.SU 32)
    (hu : u = Cert.KernelIdeal.KHost.colWords x1) (hv : v = Cert.KernelIdeal.KHost.rowWords x1) (k c : Fin 4096) :
    Ideal.hostScatterAdd Cert.Scatter.dims (fun _ => (0 : EReal)) (Cert.KernelIdeal.KHost.sideBySide u v) x2 (ix2 k c)
      = Cert.ReferenceIdeal.Read.val_main_v18 (F := Ideal) x1 x2 (ix2 c k) := by
  rw [Cert.ReferenceIdeal.RefValue.scattered_eq]
  exact Cert.Scatter.scatterAdd_transpose _ _ _ _ _
    (fun n => by rw [Cert.KernelIdeal.KHost.side_col0, Cert.ReferenceIdeal.RefValue.pairs_col1, hu, colWords_eq])
    (fun n => by rw [Cert.KernelIdeal.KHost.side_col1, Cert.ReferenceIdeal.RefValue.pairs_col0, hv, rowWords_eq])
    (fun _ _ => rfl) k c

open Cert.KernelIdeal Cert.KernelIdeal.Gen in
/-- The kernel's product-and-maximum of the factors it is handed is `result` of the arguments. -/
theorem kernel_eq (m : (ℓ : Loc nD τ sig) → Buf (Elt Ideal) ℓ) (c : Dev nD) :
    Cert.Spec.gemmRelu (V m c main_v19) (V m c main_v20)
      = result (m ((c.tc : Thread nD τ).loc main_arg0)) (m ((c.tc : Thread nD τ).loc main_arg1)) (m ((c.tc : Thread nD τ).loc main_arg2)) := by
  obtain ⟨u, v, hV, hu, hv⟩ := Cert.KernelIdeal.KHost.right_eq m c
  rw [Cert.KernelIdeal.KHost.left_eq, hV]
  unfold result
  refine congrArg (Cert.Spec.gemmRelu _) (funext fun i => ?_)
  obtain ⟨k, c', rfl⟩ : ∃ (k c' : Fin 4096), i = ix2 k c' := ⟨i 0, i 1, eq_ix2 i⟩
  exact right_transpose _ _ u v hu hv k c'

end Cert.Bridge

end
-- ==== Proof.lean ====
/-
  The kernel computes `relu(x · W)`: it scatters 1 600 000 (row, column, value) triples into a dense
  4096 × 4096 matrix `W` (entry (column, row) accumulates the value), narrows both factors to bf16, and
  multiplies tile by tile — 1024 × 1024 blocks, a float accumulator carried over the four blocks of the contracted
  axis, zeroed at the first, the maximum with zero written out at the last. The reference scatters the same
  triples into `Wt` (entry (row, column)), contracts `x` with `Wt` along the second axis of both, and takes the
  maximum with zero.

  On the extended reals narrowing is the identity and every sum is exact, so:
    • the two scattered matrices are transposes of each other (Proof/Scatter.lean: the triples landing on (a, b)
      through one pairing are those landing on (b, a) through the other);
    • the kernel's accumulation over four column blocks is the one contraction over all 4096 columns
      (Proof/KernelValue.lean: sums over consecutive ranges add up; `0 + s = s`);
    • so both results are `max (∑ k, x[r, k] · Wt[c, k]) 0` at every (r, c) (Proof/Bridge.lean).
  Only commutativity and associativity of the sum are used; no entry need be finite.

  The frames of the two kernel programs are the generated ones; the reference's frame is its generated run with
  the result dropped; the idealization rewrote nothing, so `preserves` is trivial.
-/
import proofs.«161103_j13795434954806_1_alg».proof.Defs
import proofs.«161103_j13795434954806_1_alg».proof.Proof.Gen.Kernel
import proofs.«161103_j13795434954806_1_alg».proof.Proof.Gen.Kernel.Frame
import proofs.«161103_j13795434954806_1_alg».proof.Proof.Gen.KernelIdeal
import proofs.«161103_j13795434954806_1_alg».proof.Proof.Gen.KernelIdeal.Frame
import proofs.«161103_j13795434954806_1_alg».proof.Proof.Gen.KernelIdeal.Value
import proofs.«161103_j13795434954806_1_alg».proof.Proof.Gen.ReferenceIdeal
import proofs.«161103_j13795434954806_1_alg».proof.Proof.Gen.ReferenceIdeal.Run
import proofs.«161103_j13795434954806_1_alg».proof.Proof.Gen.ReferenceIdeal.Read
import proofs.«161103_j13795434954806_1_alg».proof.Proof.Gen.Pre_finite_inputs
import proofs.«161103_j13795434954806_1_alg».proof.Proof.KernelValue
import proofs.«161103_j13795434954806_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `Cert.Bridge.result` of the arguments: the kernel's output array after its run is the
    product-and-maximum of the factors the region is handed, which is `result` by the transposition; the
    reference's run ends at its composed term, which is `result` read at an index. -/
theorem algebraic : Cert.algebraic_KernelIdeal_ReferenceIdeal := by
  intro m ρ m' ρ' _ hagree
  refine ⟨fun c => Cert.Bridge.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Value.run_blocks m ρ)
    exact (Cert.KernelIdeal.KValue.final m c).trans (Cert.Bridge.kernel_eq m c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq, (hagree c).1, (hagree c).2.1, (hagree c).2.2]
    exact Cert.Bridge.reference_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
